-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S64x4096 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S512x4096 : Shape := ⟨2, ![512, 4096]⟩
abbrev S512x64 : Shape := ⟨2, ![512, 64]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  inb_S512x64_S512x64_0_0 : ∀ a, (![0, 0] : Fin 2 → Nat) a + S512x64.size a ≤ S512x64.size a
  h_S512x64 : 0 < S512x64.numel
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S32768x64.size a
  hwx0_3 : ∀ i : grid0.Coords, EltTy.bits .f32 = 32 ∨ (Rect.block (s := S32768x64) S512x64.size (cc0_transform_3 i) (hinb0_3 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.RowSoftmax.lean ====
/-
  The mathematics of one row of the router, on the extended reals.

  A token's logits are, expert by expert, the inner product of the token's feature row with the expert's
  weight row, plus the expert's bias. Its routing probabilities are the softmax of the logits: each logit is
  shifted by the row's maximum (taken from −∞), exponentiated, and divided by the sum of the row's exponentials.

  Two facts about real-valued data are proved here.
  * Splitting the feature row as `x = x + (x − x)` and adding the two inner products changes nothing: the second
    one has every factor `x − x = 0`.
  * When the logits are real, the sum of the shifted exponentials is positive (every term is the exponential of a
    real number), so multiplying by its reciprocal is dividing by it.
-/
import Idealize.ShloMosaic.PureOps.Ideal
import Idealize.ShloMosaic.PureOps.Ideal.Laws

noncomputable section

namespace Cert.Router

open Idealize.ShloMosaic

/-- The f32 pattern of −∞ denotes the bottom of the extended reals. -/
theorem negInf_eq_bot : Ideal.ofBits .f32 0xFF800000#32 = (⊥ : EReal) := by
  simp [Ideal.ofBits, Ideal.ieee]

variable {ι κ : Type} [Fintype ι] [Fintype κ]

/-- One token's logits: `∑ k, x k · W e k + b e`. -/
def logits (x : κ → EReal) (W : ι → κ → EReal) (b : ι → EReal) (e : ι) : EReal :=
  (∑ k : κ, x k * W e k) + b e

/-- The row's maximum, taken from −∞. -/
def rowMax (L : ι → EReal) : EReal :=
  (Finset.univ : Finset ι).fold max (Ideal.ofBits .f32 0xFF800000#32) L

/-- The exponential of a logit shifted by the row's maximum. -/
def shiftedExp (L : ι → EReal) (e : ι) : EReal := Ideal.exp (L e - rowMax L)

/-- The softmax of a row of logits. -/
def softmax (L : ι → EReal) (e : ι) : EReal := Ideal.div (shiftedExp L e) (∑ e' : ι, shiftedExp L e')

/-- A finite sum of reals, formed in the extended reals, is the real sum. -/
theorem coe_sum (s : Finset κ) (f : κ → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The inner product with the remainder `x − x` of a real row vanishes, so adding it changes nothing. -/
theorem add_remainder_dot (x w : κ → EReal) (hx : ∀ k, ∃ r : ℝ, x k = r) :
    (∑ k : κ, x k * w k) + (∑ k : κ, (x k - x k) * w k) = ∑ k : κ, x k * w k := by
  have h0 : ∀ k, (x k - x k) * w k = 0 := fun k => by
    obtain ⟨r, hr⟩ := hx k
    rw [hr, ← EReal.coe_sub, sub_self, EReal.coe_zero, zero_mul]
  rw [Finset.sum_congr rfl (fun k _ => h0 k), Finset.sum_const_zero, add_zero]

/-- Real features, weights and bias give real logits. -/
theorem logits_real (x : κ → EReal) (W : ι → κ → EReal) (b : ι → EReal) (hx : ∀ k, ∃ r : ℝ, x k = r)
    (hW : ∀ e k, ∃ r : ℝ, W e k = r) (hb : ∀ e, ∃ r : ℝ, b e = r) (e : ι) : ∃ r : ℝ, logits x W b e = r := by
  choose xr hxr using hx
  choose wr hwr using hW e
  obtain ⟨br, hbr⟩ := hb e
  refine ⟨(∑ k : κ, xr k * wr k) + br, ?_⟩
  unfold logits
  rw [hbr, EReal.coe_add, ← coe_sum]
  exact congrArg (· + (br : EReal)) (Finset.sum_congr rfl fun k _ => by rw [hxr k, hwr k, EReal.coe_mul])

/-- The maximum of a row of reals, taken from −∞, is real. -/
theorem rowMax_real [Nonempty ι] (L : ι → EReal) (hL : ∀ e, ∃ r : ℝ, L e = r) : ∃ r : ℝ, rowMax L = r := by
  have htop : rowMax L ≠ ⊤ := by
    refine ne_of_lt ((Finset.fold_max_lt _).2 ⟨?_, fun e _ => ?_⟩)
    · rw [negInf_eq_bot]; exact bot_lt_top
    · obtain ⟨r, hr⟩ := hL e; rw [hr]; exact EReal.coe_lt_top r
  have hbot : rowMax L ≠ ⊥ := by
    obtain ⟨e0⟩ := (inferInstance : Nonempty ι)
    obtain ⟨r, hr⟩ := hL e0
    have hle : L e0 ≤ rowMax L := (Finset.le_fold_max _).2 (Or.inr ⟨e0, Finset.mem_univ _, le_rfl⟩)
    rw [hr] at hle
    exact ne_of_gt (lt_of_lt_of_le (EReal.bot_lt_coe r) hle)
  exact ⟨(rowMax L).toReal, (EReal.coe_toReal htop hbot).symm⟩

/-- Taking the maximum with −∞ once more changes nothing. -/
theorem max_negInf_rowMax (L : ι → EReal) : max (Ideal.ofBits .f32 0xFF800000#32) (rowMax L) = rowMax L :=
  max_eq_right ((Finset.le_fold_max _).2 (Or.inl le_rfl))

/-- For a row of real logits every shifted exponential is a positive real. -/
theorem shiftedExp_pos [Nonempty ι] (L : ι → EReal) (hL : ∀ e, ∃ r : ℝ, L e = r) (e : ι) : 0 < shiftedExp L e := by
  obtain ⟨r, hr⟩ := hL e
  obtain ⟨mx, hm⟩ := rowMax_real L hL
  unfold shiftedExp
  rw [hr, hm, ← EReal.coe_sub, Ideal.exp_coe]
  exact EReal.coe_pos.2 (Real.exp_pos _)

/-- So their sum is not zero. -/
theorem sum_shiftedExp_ne_zero [Nonempty ι] (L : ι → EReal) (hL : ∀ e, ∃ r : ℝ, L e = r) :
    (∑ e : ι, shiftedExp L e) ≠ 0 := by
  obtain ⟨e0⟩ := (inferInstance : Nonempty ι)
  have hle : shiftedExp L e0 ≤ ∑ e : ι, shiftedExp L e :=
    Finset.single_le_sum (fun e _ => le_of_lt (shiftedExp_pos L hL e)) (Finset.mem_univ e0)
  exact ne_of_gt (lt_of_lt_of_le (shiftedExp_pos L hL e0) hle)

/-- Multiplying by the reciprocal of a nonzero sum is dividing by it. -/
theorem mul_recip (a s : EReal) (hs : s ≠ 0) : a * Ideal.div 1 s = Ideal.div a s := by
  unfold Ideal.div
  rw [if_neg hs, if_neg hs, one_mul]

/-- The row as the kernel forms it — the exponentials scaled by the reciprocal of their sum — is the softmax. -/
theorem exp_mul_recip_eq_softmax [Nonempty ι] (L : ι → EReal) (hL : ∀ e, ∃ r : ℝ, L e = r) (e : ι) :
    Ideal.exp (L e - rowMax L) * Ideal.div 1 (∑ e' : ι, Ideal.exp (L e' - rowMax L)) = softmax L e :=
  mul_recip _ _ (sum_shiftedExp_ne_zero L hL)

end Cert.Router

end
-- ==== Proof.RouterSpec.lean ====
/-
  The router's result as one function of the three argument arrays: entry (p, e) of the [32768, 64] result is the
  softmax, over the 64 experts, of token p's logits `∑ k, x(p,k) · W(e,k) + b(e)`, read at expert e.
-/
import proofs.«106084_g26242250178691_cont_9to1_259_3_alg».proof.Proof.RowSoftmax
import Idealize.ShloMosaic.Lib.ValueIdx

noncomputable section

namespace Cert.Router

open Idealize.ShloMosaic Idealize.ShloMosaic.ValueIdx

/-- Token `p`'s row of logits, from the whole arrays. -/
def tokenLogits (X : (⟨2, ![32768, 4096]⟩ : Shape).Idx → EReal) (W : (⟨2, ![64, 4096]⟩ : Shape).Idx → EReal)
    (b : (⟨1, ![64]⟩ : Shape).Idx → EReal) (p : Fin 32768) : Fin 64 → EReal :=
  logits (fun k : Fin 4096 => X (ix2 p k)) (fun (e : Fin 64) (k : Fin 4096) => W (ix2 e k)) (fun e : Fin 64 => b (ix1 e))

/-- The routing probabilities: the softmax of each token's logits. -/
def routerProbs (X : (⟨2, ![32768, 4096]⟩ : Shape).Idx → EReal) (W : (⟨2, ![64, 4096]⟩ : Shape).Idx → EReal)
    (b : (⟨1, ![64]⟩ : Shape).Idx → EReal) : (⟨2, ![32768, 64]⟩ : Shape).Idx → EReal :=
  fun i => softmax (tokenLogits X W b (i 0)) (i 1)

end Cert.Router

end
-- ==== Proof.RefValue.lean ====
/-
  The reference computes the routing probabilities: its stages, read index by index, are the logits
  (a matrix product with the transposed weights plus the broadcast bias), the row maximum from −∞ (taken once more
  against −∞, which changes nothing), the shifted exponentials, their row sums from 0, and the quotient.
-/
import proofs.«106084_g26242250178691_cont_9to1_259_3_alg».proof.Proof.RouterSpec
import proofs.«106084_g26242250178691_cont_9to1_259_3_alg».proof.Proof.Gen.ReferenceIdeal.Read
import Idealize.ShloMosaic.Lib.ValueIdx
import Idealize.ShloMosaic.PureOps.Ideal.Laws

noncomputable section

namespace Cert.Router.Ref

open Cert.ReferenceIdeal Cert.ReferenceIdeal.Gen Cert.ReferenceIdeal.Read
open Idealize.ShloMosaic Idealize.ShloMosaic.ValueIdx Cert.Router

variable (x0 : (⟨S32768x4096, .f32⟩ : BufTy).Contents (Elt Ideal)) (x1 : (⟨S64x4096, .f32⟩ : BufTy).Contents (Elt Ideal))
  (x2 : (⟨S64, .f32⟩ : BufTy).Contents (Elt Ideal))

/-- The sum stage (product plus bias) at (p, e) is token p's logit for expert e. -/
theorem logits_stage (p : Fin 32768) (e : Fin 64) :
    val_main_v4 (F := Ideal) x0 x1 x2 (ix2 p e) = tokenLogits x0 x1 x2 p e := by
  rw [val_main_v4_apply, val_main_v1_apply, val_main_v3_apply, val_main_v2_apply]
  unfold tokenLogits logits
  rw [Ideal.addf_def]
  refine congrArg₂ (· + ·) (Finset.sum_congr rfl fun k _ => ?_) (congrArg x2 ?_)
  · rw [val_main_v0_apply]
    refine congrArg₂ (· * ·) (congrArg x0 ?_) (congrArg x1 ?_)
    · funext a; match a with | ⟨0, _⟩ => rfl | ⟨1, _⟩ => rfl
    · funext a; match a with | ⟨0, _⟩ => rfl | ⟨1, _⟩ => rfl
  · funext a; match a with | ⟨0, _⟩ => rfl

/-- Row p's index with expert e put back at the reduced axis is (p, e). -/
theorem lift_row (h : S32768x64.Reduces [1] S32768) (p : Fin 32768) (e : Fin (S32768x64.size 1)) :
    h.lift (ix1 p) e = ix2 p (⟨e.val, e.isLt⟩ : Fin 64) := by
  funext a; apply Fin.ext
  match a with | ⟨0, _⟩ => rfl | ⟨1, _⟩ => rfl

/-- The maximum stage at p is the row maximum of token p's logits. -/
theorem max_stage (p : Fin 32768) :
    val_main_v7 (F := Ideal) x0 x1 x2 (ix1 p) = rowMax (tokenLogits x0 x1 x2 p) := by
  rw [val_main_v7_apply, val_main_v6_apply, val_main_cst_0_apply, Ideal.maximumf_def, Ideal.ofBits_def]
  have h5 : val_main_v5 (F := Ideal) x0 x1 x2 (ix1 p) = rowMax (tokenLogits x0 x1 x2 p) := by
    unfold val_main_v5
    rw [Host.reduce_eq_fold_single FloatOps.maximumf _ _ reducesTo_S32768x64_S32768_d1 (by decide) h_S_]
    unfold rowMax
    refine congrArg (fun f => Finset.fold max (Ideal.ofBits .f32 0xFF800000#32) f (Finset.univ : Finset (Fin 64))) ?_
    funext e
    show val_main_v4 (F := Ideal) x0 x1 x2 (Shape.Reduces.lift _ (ix1 p) e) = _
    rw [lift_row, logits_stage]
    rfl
  rw [h5]
  exact max_negInf_rowMax _

/-- The exponential stage at (p, e) is the shifted exponential of token p's logit for expert e. -/
theorem exp_stage (p : Fin 32768) (e : Fin 64) :
    val_main_v11 (F := Ideal) x0 x1 x2 (ix2 p e) = shiftedExp (tokenLogits x0 x1 x2 p) e := by
  rw [val_main_v11_apply, val_main_v10_apply, val_main_v9_apply, val_main_v8_apply, Ideal.hostUnary_exp_def, Ideal.subf_def,
    logits_stage]
  have hi : idx_main_v8 (idx_main_v9 (ix2 p e)) = ix1 p := by
    funext a; match a with | ⟨0, _⟩ => rfl
  rw [hi, max_stage]
  rfl

/-- The reference's result is the routing probabilities. -/
theorem result_eq : val_main_v15 (F := Ideal) x0 x1 x2 = routerProbs x0 x1 x2 := by
  funext i
  obtain ⟨p, e, rfl⟩ : ∃ (p : Fin 32768) (e : Fin 64), i = ix2 p e := ⟨i 0, i 1, eq_ix2 i⟩
  rw [val_main_v15_apply, val_main_v14_apply, val_main_v13_apply, val_main_v12_apply, val_main_cst_1_apply, Ideal.hostDivf_def,
    Ideal.ofBits_def, Ideal.ofBits_zero_f32, zero_add, exp_stage]
  unfold routerProbs softmax
  refine congrArg (Ideal.div _) (Finset.sum_congr rfl fun k _ => ?_)
  have hi : idx_main_v12 (idx_main_v13 (idx_main_v14 (ix2 p e))) k = ix2 p k := by
    funext a; match a with | ⟨0, _⟩ => rfl | ⟨1, _⟩ => rfl
  rw [hi, exp_stage]

end Cert.Router.Ref

end
-- ==== Proof.KernelBlock.lean ====
/-
  What the kernel's body computes from one block of 512 tokens, entry by entry.

  The body forms the block's logits as the sum of two matrix products against the weights — one with the feature
  block itself, one with its remainder `x − x` — plus the bias row, then takes each row's maximum from −∞, the shifted
  exponentials, their row sums, and scales the exponentials by the reciprocal of their row's sum. For real data the
  remainder's product vanishes and the scaling is the softmax's division, so entry (r, e) of the block is the softmax of
  row r's logits at expert e.
-/
import proofs.«106084_g26242250178691_cont_9to1_259_3_alg».proof.Proof.RouterSpec
import proofs.«106084_g26242250178691_cont_9to1_259_3_alg».proof.Proof.Gen.KernelIdeal.Skeleton
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Router.Block

open Cert.KernelIdeal Cert.KernelIdeal.Gen
open Idealize.ShloMosaic Idealize.ShloMosaic.ValueIdx Cert.Router

variable {α : Type}

/-! ## The layout operations of the body, read at an index -/

/-- A column [512, 1] broadcast along the experts reads, at (r, e), the column at r. -/
theorem bcast_col (v : S512x1.Idx → α) (r : Fin 512) (e : Fin 64) :
    broadcastTo S512x64 v broadcasts_S512x1_S512x64 (ix2 r e) = v (ix2 r (0 : Fin 1)) := by
  refine broadcastTo_apply v broadcasts_S512x1_S512x64 (ix2 r e) (ix2 r (0 : Fin 1)) fun ax => ?_
  match ax with
  | ⟨0, _⟩ => show r.val = if (512 : Nat) = 1 then 0 else r.val; rw [if_neg (by decide)]
  | ⟨1, _⟩ => rfl

/-- A row vector [512] cast to a column [512, 1] reads, at (r, 0), the vector at r. -/
theorem cast_col (v : S512.Idx → α) (r : Fin 512) :
    shapeCast S512x1 v shapeCasts_S512_S512x1 (ix2 r (0 : Fin 1)) = v (ix1 r) := by
  refine shapeCast_apply v shapeCasts_S512_S512x1 (ix2 r (0 : Fin 1)) (ix1 r) ?_
  rw [Shape.rowMajor_val_one, Shape.rowMajor_val_two]
  show r.val = r.val * 1 + 0
  omega

/-- Row r's index with expert e put back at the reduced axis is (r, e). -/
theorem lift_row (h : S512x64.Reduces [1] S512) (r : Fin 512) (e : Fin (S512x64.size 1)) :
    h.lift (ix1 r) e = ix2 r (⟨e.val, e.isLt⟩ : Fin 64) := by
  funext a; apply Fin.ext
  match a with | ⟨0, _⟩ => rfl | ⟨1, _⟩ => rfl

/-- The body's row maximum from −∞, at row r. -/
theorem max_row (v : FVec Ideal S512x64 .f32) (r : Fin 512) :
    multiReduction (F := Ideal) .maximumf [1] S512 v 0xFF800000#32 reduces_S512x64_S512 (.inl rfl) rfl (ix1 r)
      = rowMax (fun e : Fin 64 => v (ix2 r e)) := by
  refine (Ideal.multiReduction_maximumf_single v 0xFF800000#32 reduces_S512x64_S512 (.inl rfl) rfl (ix1 r)).trans ?_
  unfold rowMax
  refine congrArg (fun f => Finset.fold max (Ideal.ofBits .f32 0xFF800000#32) f (Finset.univ : Finset (Fin 64))) ?_
  funext e
  show v (Shape.Reduces.lift _ (ix1 r) e) = _
  rw [lift_row]
  rfl

/-- The body's row sum, at row r. -/
theorem sum_row (v : FVec Ideal S512x64 .f32) (r : Fin 512) :
    multiReduction (F := Ideal) .add [1] S512 v 0x00000000#32 reduces_S512x64_S512 (.inl rfl) rfl (ix1 r)
      = ∑ e : Fin 64, v (ix2 r e) := by
  refine (Ideal.multiReduction_add_single v 0x00000000#32 reduces_S512x64_S512 (.inl rfl) rfl (ix1 r)).trans ?_
  refine Finset.sum_congr rfl fun e _ => ?_
  show v (Shape.Reduces.lift _ (ix1 r) e) = _
  rw [lift_row]
  rfl

/-! ## The matrix product of the body, read at an index -/

theorem lhs_axis0 (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl
theorem lhs_axis1 (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q
theorem rhs_axis0 (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl
theorem rhs_axis1 (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- A [512, 4096] block times the transposed [64, 4096] weights, into zero: entry (r, e) is the inner product of
    row r of the block with row e of the weights. -/
theorem matmul_row (a : FVec Ideal S512x4096 .bf16) (w : FVec Ideal S64x4096 .bf16) (r : Fin 512) (e : Fin 64) :
    matmul (F := Ideal) dot_S512x4096_S64x4096_S512x64_1_1_0_0_n_n none a w (constant (F := Ideal) S512x64 .f32 0x00000000#32) (ix2 r e)
      = ∑ k : Fin 4096, a (ix2 r k) * w (ix2 e k) := by
  simp only [matmul]
  rw [Ideal.matmul_constant_zero_apply, ← Equiv.sum_comp (contrEquiv1 dot_S512x4096_S64x4096_S512x64_1_1_0_0_n_n 4096 rfl rfl).symm]
  refine Finset.sum_congr rfl fun k _ => ?_
  have hk := contrEquiv1_symm_val dot_S512x4096_S64x4096_S512x64_1_1_0_0_n_n 4096 rfl rfl k
  have el : dot_S512x4096_S64x4096_S512x64_1_1_0_0_n_n.lhsIdx (ix2 r e) ((contrEquiv1 dot_S512x4096_S64x4096_S512x64_1_1_0_0_n_n 4096 rfl rfl).symm k) = ix2 r k := funext fun ax => Fin.ext (by
    match ax with
    | ⟨0, _⟩ => exact lhs_axis0 _ _
    | ⟨1, _⟩ => exact (lhs_axis1 _ _).trans hk)
  have er : dot_S512x4096_S64x4096_S512x64_1_1_0_0_n_n.rhsIdx (ix2 r e) ((contrEquiv1 dot_S512x4096_S64x4096_S512x64_1_1_0_0_n_n 4096 rfl rfl).symm k) = ix2 e k := funext fun ax => Fin.ext (by
    match ax with
    | ⟨0, _⟩ => exact rhs_axis0 _ _
    | ⟨1, _⟩ => exact (rhs_axis1 _ _).trans hk)
  rw [el, er]

/-! ## The body in two steps -/

/-- The block's logits as the body forms them. -/
def blockLogits (x0 : FVec Ideal S512x4096 .f32) (x1 : FVec Ideal S64x4096 .f32) (x2 : FVec Ideal S1x64 .f32) : FVec Ideal S512x64 .f32 :=
  addf
    (addf
      (matmul (F := Ideal) dot_S512x4096_S64x4096_S512x64_1_1_0_0_n_n none (truncf .bf16 x0 bitsLt_bf16_f32) (truncf .bf16 x1 bitsLt_bf16_f32) (constant (F := Ideal) S512x64 .f32 0x00000000#32))
      (matmul (F := Ideal) dot_S512x4096_S64x4096_S512x64_1_1_0_0_n_n none (truncf .bf16 (subf x0 x0) bitsLt_bf16_f32) (truncf .bf16 x1 bitsLt_bf16_f32) (constant (F := Ideal) S512x64 .f32 0x00000000#32)))
    (broadcastTo S512x64 (shapeCast S1x64 x2 shapeCasts_S1x64_S1x64) broadcasts_S1x64_S512x64)

/-- The body's softmax of a block of logits: exponentials scaled by the reciprocal of their row's sum. -/
def blockSoftmax (l : FVec Ideal S512x64 .f32) : FVec Ideal S512x64 .f32 :=
  mulf
    (exp (subf l (broadcastTo S512x64 (shapeCast S512x1 (multiReduction (F := Ideal) .maximumf [1] S512 l 0xFF800000#32 reduces_S512x64_S512 (.inl rfl) rfl) shapeCasts_S512_S512x1) broadcasts_S512x1_S512x64)))
    (broadcastTo S512x64
      (divf (broadcast S512x1 (Scalar.ofBits (F := Ideal) .f32 0x3F800000#32))
        (shapeCast S512x1
          (multiReduction (F := Ideal) .add [1] S512
            (exp (subf l (broadcastTo S512x64 (shapeCast S512x1 (multiReduction (F := Ideal) .maximumf [1] S512 l 0xFF800000#32 reduces_S512x64_S512 (.inl rfl) rfl) shapeCasts_S512_S512x1) broadcasts_S512x1_S512x64)))
            0x00000000#32 reduces_S512x64_S512 (.inl rfl) rfl)
          shapeCasts_S512_S512x1))
      broadcasts_S512x1_S512x64)

/-- The body's payload is the second step after the first. -/
theorem pay_eq (x0 : FVec Ideal S512x4096 .f32) (x1 : FVec Ideal S64x4096 .f32) (x2 : FVec Ideal S1x64 .f32) :
    k0_pay1 (F := Ideal) x0 x1 x2 = blockSoftmax (blockLogits x0 x1 x2) := rfl

/-! ## The two steps, read at an index -/

/-- Row r of the block's logits, for a real feature block: the remainder's product vanishes. -/
theorem blockLogits_apply (x0 : FVec Ideal S512x4096 .f32) (x1 : FVec Ideal S64x4096 .f32) (x2 : FVec Ideal S1x64 .f32)
    (h0 : ∀ i, ∃ a : ℝ, x0 i = a) (r : Fin 512) (e : Fin 64) :
    blockLogits x0 x1 x2 (ix2 r e)
      = logits (fun k : Fin 4096 => x0 (ix2 r k)) (fun (e : Fin 64) (k : Fin 4096) => x1 (ix2 e k)) (fun e : Fin 64 => x2 (ix2 (0 : Fin 1) e)) e := by
  unfold blockLogits logits
  rw [addf_apply, addf_apply, matmul_row, matmul_row, broadcastTo_1b_ab_apply, shapeCast_self]
  refine congrArg (· + x2 (ix2 (0 : Fin 1) e)) ?_
  exact add_remainder_dot (fun k : Fin 4096 => x0 (ix2 r k)) (fun k : Fin 4096 => x1 (ix2 e k)) (fun k => h0 _)

/-- Entry (r, e) of the body's softmax of a block of logits. -/
theorem blockSoftmax_apply (l : FVec Ideal S512x64 .f32) (r : Fin 512) (e : Fin 64) :
    blockSoftmax l (ix2 r e)
      = Ideal.exp (l (ix2 r e) - rowMax (fun e' : Fin 64 => l (ix2 r e')))
        * Ideal.div 1 (∑ e' : Fin 64, Ideal.exp (l (ix2 r e') - rowMax (fun e'' : Fin 64 => l (ix2 r e'')))) := by
  have hexp : ∀ e' : Fin 64,
      exp (subf l (broadcastTo S512x64 (shapeCast S512x1 (multiReduction (F := Ideal) .maximumf [1] S512 l 0xFF800000#32 reduces_S512x64_S512 (.inl rfl) rfl) shapeCasts_S512_S512x1) broadcasts_S512x1_S512x64)) (ix2 r e')
        = Ideal.exp (l (ix2 r e') - rowMax (fun e'' : Fin 64 => l (ix2 r e''))) := fun e' => by
    show Ideal.exp (l (ix2 r e') - broadcastTo S512x64 _ broadcasts_S512x1_S512x64 (ix2 r e')) = _
    rw [bcast_col, cast_col, max_row]
  unfold blockSoftmax
  rw [mulf_apply, hexp, bcast_col, divf_apply, cast_col, sum_row, broadcast_apply]
  show _ * Ideal.div (Ideal.ofBits .f32 0x3F800000#32) _ = _
  rw [Ideal.ofBits_one_f32]
  exact congrArg (fun s => _ * Ideal.div 1 s) (Finset.sum_congr rfl fun e' _ => hexp e')

/-- Entry (r, e) of the body's payload, for real data: the softmax of row r's logits at expert e. -/
theorem pay_apply (x0 : FVec Ideal S512x4096 .f32) (x1 : FVec Ideal S64x4096 .f32) (x2 : FVec Ideal S1x64 .f32)
    (h0 : ∀ i, ∃ a : ℝ, x0 i = a) (h1 : ∀ i, ∃ a : ℝ, x1 i = a) (h2 : ∀ i, ∃ a : ℝ, x2 i = a) (r : Fin 512) (e : Fin 64) :
    k0_pay1 (F := Ideal) x0 x1 x2 (ix2 r e)
      = softmax (logits (fun k : Fin 4096 => x0 (ix2 r k)) (fun (e : Fin 64) (k : Fin 4096) => x1 (ix2 e k)) (fun e : Fin 64 => x2 (ix2 (0 : Fin 1) e))) e := by
  rw [pay_eq, blockSoftmax_apply]
  have hl : (fun e' : Fin 64 => blockLogits x0 x1 x2 (ix2 r e'))
      = logits (fun k : Fin 4096 => x0 (ix2 r k)) (fun (e : Fin 64) (k : Fin 4096) => x1 (ix2 e k)) (fun e : Fin 64 => x2 (ix2 (0 : Fin 1) e)) :=
    funext fun e' => blockLogits_apply x0 x1 x2 h0 r e'
  have hreal : ∀ e' : Fin 64, ∃ a : ℝ,
      logits (fun k : Fin 4096 => x0 (ix2 r k)) (fun (e : Fin 64) (k : Fin 4096) => x1 (ix2 e k)) (fun e : Fin 64 => x2 (ix2 (0 : Fin 1) e)) e' = a :=
    logits_real _ _ _ (fun k => h0 _) (fun e k => h1 _) (fun e => h2 _)
  refine Eq.trans ?_ (exp_mul_recip_eq_softmax _ hreal e)
  simp only [← hl]

/-- The same entry against the whole arrays: when row `y 0` of the feature block is row `i 0` of the features, the
    weight block is the weights, the bias block is the bias, and the expert is the same, entry `y` of the body's payload
    is entry `i` of the routing probabilities. -/
theorem block_entry (X : FVec Ideal S32768x4096 .f32) (W : FVec Ideal S64x4096 .f32) (b : FVec Ideal S64 .f32)
    (x0 : FVec Ideal S512x4096 .f32) (x1 : FVec Ideal S64x4096 .f32) (x2 : FVec Ideal S1x64 .f32)
    (y : S512x64.Idx) (i : S32768x64.Idx)
    (hx0 : ∀ j, ∃ a : ℝ, x0 j = a) (hx1 : ∀ j, ∃ a : ℝ, x1 j = a) (hx2 : ∀ j, ∃ a : ℝ, x2 j = a)
    (h0 : ∀ k : Fin 4096, x0 (ix2 (y 0) k) = X (ix2 (i 0) k))
    (h1 : ∀ (e : Fin 64) (k : Fin 4096), x1 (ix2 e k) = W (ix2 e k))
    (h2 : ∀ e : Fin 64, x2 (ix2 (0 : Fin 1) e) = b (ix1 e))
    (hi : (i 1).val = (y 1).val) :
    k0_pay1 (F := Ideal) x0 x1 x2 y = routerProbs X W b i := by
  obtain ⟨r, e, rfl⟩ : ∃ (r : Fin 512) (e : Fin 64), y = ix2 r e := ⟨y 0, y 1, eq_ix2 y⟩
  rw [pay_apply x0 x1 x2 hx0 hx1 hx2]
  unfold routerProbs tokenLogits
  have e1 : (i 1 : Fin 64) = e := Fin.ext hi
  rw [e1]
  refine congrArg (fun L => softmax L e) ?_
  funext e'
  unfold logits
  refine congrArg₂ (· + ·) (Finset.sum_congr rfl fun k _ => ?_) (h2 e')
  exact congrArg₂ (· * ·) (h0 k) (h1 e' k)

end Cert.Router.Block

end
-- ==== Proof.KernelValue.lean ====
/-
  From blocks to the array. Grid point t stages rows 512·t … 512·t + 511 of the features, the whole weights and the bias
  (reshaped to one row before the call), and writes back rows 512·t … 512·t + 511 of the result. What it writes back is,
  entry by entry, the routing probabilities of those tokens; the 64 blocks tile the result, so the result array ends
  holding the routing probabilities of all tokens.
-/
import proofs.«106084_g26242250178691_cont_9to1_259_3_alg».proof.Proof.KernelBlock
import proofs.«106084_g26242250178691_cont_9to1_259_3_alg».proof.Proof.Gen.KernelIdeal.Value
import Idealize.ShloMosaic.Lib.Pipeline.Value
import Idealize.ShloMosaic.Lib.ValueLayout
import Idealize.ShloMosaic.Lib.StableHlo.Run

noncomputable section

namespace Cert.Router.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.Router Cert.Router.Block

variable (m : (ℓ : Loc nD τ sig) → Buf (Elt Ideal) ℓ) (ρ : Dev nD → PrngReg)

theorem hz : (![0, 0] : Fin 2 → Nat) = fun _ => 0 := funext fun a => by fin_cases a <;> rfl

/-- The bias window's array when the call is entered: the bias reshaped to one row. -/
theorem bias_row (c : Dev nD) :
    (V m c main_v0 : S1x64.Idx → EReal) = shapeCast S1x64 (m ((c : Thread nD τ).loc main_arg2) : S64.Idx → EReal) shapeCasts_S64_S1x64 := by
  dsimp only [Gen.V, Gen.hostOps0]
  after_results
  rfl

/-- The printed index maps over the grid: the feature and result blocks move with the point, the others stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The three argument arrays hold real numbers, on every device. -/
def RealArgs : Prop := ∀ c : Dev nD,
  (∀ i : S32768x4096.Idx, ∃ a : ℝ, (m ((c : Thread nD τ).loc main_arg0) : S32768x4096.Idx → EReal) i = (a : EReal))
  ∧ (∀ i : S64x4096.Idx, ∃ a : ℝ, (m ((c : Thread nD τ).loc main_arg1) : S64x4096.Idx → EReal) i = (a : EReal))
  ∧ (∀ i : S64.Idx, ∃ a : ℝ, (m ((c : Thread nD τ).loc main_arg2) : S64.Idx → EReal) i = (a : EReal))

/-- What point `t` writes back is block `t` of the routing probabilities of the argument arrays, when these hold
    real numbers. -/
theorem flushed_eq (hre : RealArgs m)
    (c : Dev nD) (t : Fin cfg0.N) :
    (dats m 0 c).flushed 3 t = ((cfg0.win 3).blk t).view.read (Elt Ideal)
      (routerProbs (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S512x4096) hz, View.ld_unit_zero (S := S64x4096) hz, View.ld_unit_zero (S := S1x64) hz]
  obtain ⟨f00, f01, f10, f11, f20, f21, f30, f31⟩ := idx_facts t
  funext j
  show k0_pay1 (F := Ideal) (iblk m c 0 t) (iblk m c 1 t) (iblk m c 2 t) j
    = routerProbs (m ((c : Thread nD τ).loc main_arg0)) (m ((c : Thread nD τ).loc main_arg1)) (m ((c : Thread nD τ).loc main_arg2))
        (((cfg0.win 3).blk t).view.emb j)
  refine block_entry _ _ _ (iblk m c 0 t) (iblk m c 1 t) (iblk m c 2 t) j (((cfg0.win 3).blk t).view.emb j) ?_ ?_ ?_ ?_ ?_ ?_ ?_
  · intro y
    show ∃ a : ℝ, (V m c main_arg0 : S32768x4096.Idx → EReal) (((cfg0.win 0).blk t).view.emb y) = (a : EReal)
    rw [V_main_arg0]; exact (hre c).1 _
  · intro y
    show ∃ a : ℝ, (V m c main_arg1 : S64x4096.Idx → EReal) (((cfg0.win 1).blk t).view.emb y) = (a : EReal)
    rw [V_main_arg1]; exact (hre c).2.1 _
  · intro y
    show ∃ a : ℝ, (V m c main_v0 : S1x64.Idx → EReal) (((cfg0.win 2).blk t).view.emb y) = (a : EReal)
    rw [bias_row]; unfold shapeCast; exact (hre c).2.2 _
  · intro k
    show V m c main_arg0 (((cfg0.win 0).blk t).view.emb (ix2 (j 0) k)) = _
    rw [V_main_arg0]
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 4096 + 1 * k.val = k.val; omega
  · intro e k
    show V m c main_arg1 (((cfg0.win 1).blk t).view.emb (ix2 e k)) = _
    rw [V_main_arg1]
    refine congrArg _ (funext fun a => Fin.ext ?_)
    match a with
    | ⟨0, _⟩ => show win0_1.index t (0 : Fin 2) * 64 + 1 * e.val = e.val; omega
    | ⟨1, _⟩ => show win0_1.index t (1 : Fin 2) * 4096 + 1 * k.val = k.val; omega
  · intro e
    show (V m c main_v0 : S1x64.Idx → EReal) (((cfg0.win 2).blk t).view.emb (ix2 (0 : Fin 1) e)) = _
    rw [bias_row]
    have he : ((cfg0.win 2).blk t).view.emb (ix2 (0 : Fin 1) e) = ix2 (0 : Fin 1) e := funext fun a => Fin.ext (by
      match a with
      | ⟨0, _⟩ => show win0_2.index t (0 : Fin 2) * 1 + 1 * 0 = 0; omega
      | ⟨1, _⟩ => show win0_2.index t (1 : Fin 2) * 64 + 1 * e.val = e.val; omega)
    rw [he]
    exact shapeCast_a_1a_apply _ shapeCasts_S64_S1x64 (0 : Fin 1) e
  · show win0_3.index t (1 : Fin 2) * 64 + 1 * (j 1).val = (j 1).val
    omega

/-- An index of the result is in point `t`'s block iff each coordinate is in the block's range on its axis. -/
theorem mem_blk (t : Fin cfg0.N) (i : S32768x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v1).slice (win0_3.rect t)).set ↔ _
  rw [View.set_slice_whole, Rect.mem_set_unit]
  exact Iff.rfl

/-- Every index of the result lies in the block of the point that owns its row. -/
theorem covered (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 64 := N_0
  refine ⟨⟨(i 0).val / 512, by rw [hN]; omega⟩, flush0_3 _, ?_⟩
  rw [mem_blk]
  obtain ⟨-, -, -, -, -, -, f30, f31⟩ := idx_facts ⟨(i 0).val / 512, by rw [hN]; omega⟩
  intro a
  match a with
  | ⟨0, _⟩ => show win0_3.index _ (0 : Fin 2) * 512 ≤ (i 0).val ∧ (i 0).val < win0_3.index _ (0 : Fin 2) * 512 + 512; rw [f30]; show (i 0).val / 512 * 512 ≤ (i 0).val ∧ (i 0).val < (i 0).val / 512 * 512 + 512; omega
  | ⟨1, _⟩ => show win0_3.index _ (1 : Fin 2) * 64 ≤ (i 1).val ∧ (i 1).val < win0_3.index _ (1 : Fin 2) * 64 + 64; rw [f31]; omega

/-- The result array after the run holds the routing probabilities. -/
theorem final (hre : RealArgs m) (c : Dev nD) :
    (dats m 0 c).arrAt 3 cfg0.N
      = routerProbs (m ((c : Thread nD τ).loc main_arg0)) (m ((c : Thread nD τ).loc main_arg1)) (m ((c : Thread nD τ).loc main_arg2)) :=
  (dats m 0 c).arrAt_eq_of_cover 3 _ (fun t _ => flushed_eq m hre c t) covered

/-- The run, read: the result at the routing probabilities of the arguments, the arguments unchanged. -/
theorem run (hre : RealArgs m) :
    θ_run defs (onTc (τ := τ) (main (F := Ideal))) ⟨m, fun _ => 0, ρ⟩ fun r => ∀ c : Dev nD,
      r.2.mem ((c : Thread nD τ).loc main_v1)
        = routerProbs (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hre c), (h c).2⟩) (Value.run_blocks m ρ)

end Cert.Router.Kernel

end
-- ==== Proof.Finite.lean ====
/-
  The precondition, read back: every entry of the three argument arrays has absolute value below +∞, so every entry is a
  real number (neither infinity of the extended reals).
-/
import proofs.«106084_g26242250178691_cont_9to1_259_3_alg».proof.Pre_finite_inputs
import proofs.«106084_g26242250178691_cont_9to1_259_3_alg».proof.Proof.Gen.Pre_finite_inputs
import Idealize.ShloMosaic.Lib.ReduceAll
import Idealize.ShloMosaic.Lib.ValueIdx
import Idealize.ShloMosaic.PureOps.Ideal.Laws

noncomputable section

namespace Cert.Router.Finite

open Cert.Pre_finite_inputs Cert.Pre_finite_inputs.Gen
open Idealize.ShloMosaic Idealize.ShloMosaic.ValueIdx

instance : Subsingleton S_.Idx := ⟨fun a b => funext fun d => d.elim0⟩

/-- An extended real whose absolute value compares below the pattern of +∞ is a real number. -/
theorem real_of_abs_lt (x : EReal)
    (h : Ideal.cmp .olt (max x (-x)) (Ideal.ofBits .f32 0x7F800000#32) = 1#1) : ∃ r : ℝ, x = r := by
  have hinf : Ideal.ofBits .f32 0x7F800000#32 = (⊤ : EReal) := by simp [Ideal.ofBits, Ideal.ieee]
  rw [hinf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => simp at hlt
  | coe r => exact ⟨r, rfl⟩
  | top => simp at hlt

/-- Under the precondition the three argument arrays hold real numbers. -/
theorem reals_of_pre (a0 : FVec Ideal S32768x4096 .f32) (a1 : FVec Ideal S64x4096 .f32) (a2 : FVec Ideal S64 .f32)
    (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ix0
  dsimp only [fn] at h0
  obtain ⟨h01, h2⟩ := IntOp.andi_eq_one.1 h0
  obtain ⟨h0', h1⟩ := IntOp.andi_eq_one.1 h01
  refine ⟨fun i => real_of_abs_lt _ ?_, fun i => real_of_abs_lt _ ?_, fun i => real_of_abs_lt _ ?_⟩
  · exact Host.reduce_andi_all _ _ _ _ _ h0' i
  · exact Host.reduce_andi_all _ _ _ _ _ h1 i
  · exact Host.reduce_andi_all _ _ _ _ _ h2 i

end Cert.Router.Finite

end
-- ==== Proof.lean ====
/- The router's forward pass: routing probabilities `softmax(x · Wᵀ + b)` for 32768 tokens and 64 experts.

   The kernel works on blocks of 512 tokens. It splits each feature block as `x = hi + lo` with `hi` the block narrowed
   to bf16 and `lo = x − hi`, adds the two matrix products against the weights, adds the bias, and takes the softmax row
   by row, scaling the exponentials by the reciprocal of their sum. On the extended reals a change of float format is the
   identity, so `hi = x` and `lo = x − x`; for real features this remainder is zero and its product contributes
   nothing. The reference forms the same logits with one matrix product against the transposed weights and divides the
   exponentials by their sum. For real data the sum of the shifted exponentials is a positive real, so scaling by its
   reciprocal and dividing by it agree. The precondition says that every entry of the three arrays is finite, that is, real.

   The frames of the two kernel programs are the generated ones; the reference's frame is its generated run with the
   result dropped; the one format rewrite of the idealization is the identity at the ideal instance by definition. -/
import proofs.«106084_g26242250178691_cont_9to1_259_3_alg».proof.Defs
import proofs.«106084_g26242250178691_cont_9to1_259_3_alg».proof.Proof.Gen.Kernel
import proofs.«106084_g26242250178691_cont_9to1_259_3_alg».proof.Proof.Gen.Kernel.Skeleton
import proofs.«106084_g26242250178691_cont_9to1_259_3_alg».proof.Proof.Gen.Kernel.Launch
import proofs.«106084_g26242250178691_cont_9to1_259_3_alg».proof.Proof.Gen.Kernel.Points
import proofs.«106084_g26242250178691_cont_9to1_259_3_alg».proof.Proof.Gen.Kernel.Frame
import proofs.«106084_g26242250178691_cont_9to1_259_3_alg».proof.Proof.Gen.KernelIdeal
import proofs.«106084_g26242250178691_cont_9to1_259_3_alg».proof.Proof.Gen.KernelIdeal.Skeleton
import proofs.«106084_g26242250178691_cont_9to1_259_3_alg».proof.Proof.Gen.KernelIdeal.Launch
import proofs.«106084_g26242250178691_cont_9to1_259_3_alg».proof.Proof.Gen.KernelIdeal.Points
import proofs.«106084_g26242250178691_cont_9to1_259_3_alg».proof.Proof.Gen.KernelIdeal.Frame
import proofs.«106084_g26242250178691_cont_9to1_259_3_alg».proof.Proof.Gen.ReferenceIdeal
import proofs.«106084_g26242250178691_cont_9to1_259_3_alg».proof.Proof.Gen.Pre_finite_inputs
import proofs.«106084_g26242250178691_cont_9to1_259_3_alg».proof.Proof.Gen.KernelIdeal.Value
import proofs.«106084_g26242250178691_cont_9to1_259_3_alg».proof.Proof.Gen.ReferenceIdeal.Run
import proofs.«106084_g26242250178691_cont_9to1_259_3_alg».proof.Proof.Gen.ReferenceIdeal.Read
import Idealize.ShloMosaic.Adequacy
import Idealize.ShloMosaic.Init

import proofs.«106084_g26242250178691_cont_9to1_259_3_alg».proof.Proof.RefValue
import proofs.«106084_g26242250178691_cont_9to1_259_3_alg».proof.Proof.KernelValue
import proofs.«106084_g26242250178691_cont_9to1_259_3_alg».proof.Proof.Finite

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Widening back a narrowed block is the identity on the extended reals. -/
theorem preserves : Cert.preserves_Kernel_KernelIdeal := IdealRules.truncf_extf.statement _ .f32 .bf16

/-- Under the precondition the idealized kernel's argument arrays hold real numbers. -/
theorem realArgs_of_pre (m : (ℓ : Loc Cert.KernelIdeal.nD Cert.KernelIdeal.τ Cert.KernelIdeal.sig) → Buf (Elt Ideal) ℓ)
    (h : Cert.Pre_KernelIdeal m) : Cert.Router.Kernel.RealArgs m :=
  fun c => Cert.Router.Finite.reals_of_pre _ _ _ (h c)

/-- Both programs end with the routing probabilities of the arguments: the kernel block by block, the reference
    stage by stage. -/
theorem algebraic : Cert.algebraic_KernelIdeal_ReferenceIdeal := by
  intro m ρ m' ρ' hpre hagree
  refine ⟨_, Cert.Router.Kernel.run m ρ (realArgs_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Router.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
